-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S4x2048x4096 .f32) (main_arg1 : FVec F S16384x4096 .f32) (main_arg2 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S4x2048x4096 : Shape := ⟨3, ![4, 2048, 4096]⟩
abbrev S16384x4096 : Shape := ⟨2, ![16384, 4096]⟩
abbrev S16384 : Shape := ⟨1, ![16384]⟩
abbrev S256x4096 : Shape := ⟨2, ![256, 4096]⟩
abbrev S256x32x128 : Shape := ⟨3, ![256, 32, 128]⟩
abbrev S256x32 : Shape := ⟨2, ![256, 32]⟩
abbrev S256x32x1 : Shape := ⟨3, ![256, 32, 1]⟩
abbrev S8192x4096 : Shape := ⟨2, ![8192, 4096]⟩
abbrev S1x16384 : Shape := ⟨2, ![1, 16384]⟩
abbrev S8192x16384 : Shape := ⟨2, ![8192, 16384]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩
abbrev S4096x1024 : Shape := ⟨2, ![4096, 1024]⟩
abbrev S4x2048x16384 : Shape := ⟨3, ![4, 2048, 16384]⟩

abbrev nBuf : Space → Nat
  | .hbm => 9
  | .vmem => 12
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384x4096, .bf16⟩
  | .hbm, ⟨4, _⟩ => ⟨S4x2048x4096, .bf16⟩
  | .hbm, ⟨5, _⟩ => ⟨S8192x4096, .bf16⟩
  | .hbm, ⟨6, _⟩ => ⟨S1x16384, .f32⟩
  | .hbm, ⟨7, _⟩ => ⟨S8192x16384, .f32⟩
  | .hbm, ⟨8, _⟩ => ⟨S4x2048x16384, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S256x4096_S256x4096_0_0 : ∀ a, (![0, 0] : Fin 2 → Nat) a + S256x4096.size a ≤ S256x4096.size a
  h_S256x4096 : 0 < S256x4096.numel
  shapeCasts_S256x4096_S256x32x128 : S256x4096.ShapeCasts S256x32x128
  reduces_S256x32x128_S256x32 : S256x32x128.Reduces [2] S256x32
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S4x2048x4096_S8192x4096 : S4x2048x4096.ShapeCasts S8192x4096
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  transposes_S1024x4096_p1_0_S4096x1024 : S1024x4096.Transposes [1, 0] S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .bf16 = 32 ∨ (Rect.block (s := S16384x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .bf16 = 32 ∨ (Rect.block (s := S8192x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S16384x4096.size a
  hwx1_1 : ∀ i : grid1.Coords, EltTy.bits .bf16 = 32 ∨ (Rect.block (s := S16384x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x16384.size a
  hwx1_2 : ∀ i : grid1.Coords, EltTy.bits .f32 = 32 ∨ (Rect.block (s := S1x16384) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S8192x16384.size a
  hwx1_3 : ∀ i : grid1.Coords, EltTy.bits .f32 = 32 ∨ (Rect.block (s := S8192x16384) S512x1024.size (cc1_transform_3 i) (hinb1_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S16384x32x128 : Shape := ⟨3, ![16384, 32, 128]⟩
abbrev S_ : Shape := ⟨0, ![]⟩
abbrev S16384x32 : Shape := ⟨2, ![16384, 32]⟩
abbrev S16384x32x1 : Shape := ⟨3, ![16384, 32, 1]⟩
abbrev S4x2048x16384 : Shape := ⟨3, ![4, 2048, 16384]⟩
abbrev S1x1x16384 : Shape := ⟨3, ![1, 1, 16384]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .f32⟩
  | .hbm, ⟨2, _⟩ => ⟨S16384, .f32⟩
  | .hbm, ⟨3, _⟩ => ⟨S16384x32x128, .f32⟩
  | .hbm, ⟨4, _⟩ => ⟨S16384x32x128, .f32⟩
  | .hbm, ⟨5, _⟩ => ⟨S_, .f32⟩
  | .hbm, ⟨6, _⟩ => ⟨S16384x32, .f32⟩
  | .hbm, ⟨7, _⟩ => ⟨S16384x32x1, .f32⟩
  | .hbm, ⟨8, _⟩ => ⟨S_, .f32⟩
  | .hbm, ⟨9, _⟩ => ⟨S16384x32x1, .f32⟩
  | .hbm, ⟨10, _⟩ => ⟨S16384x32x1, .f32⟩
  | .hbm, ⟨11, _⟩ => ⟨S_, .f32⟩
  | .hbm, ⟨12, _⟩ => ⟨S16384x32x1, .f32⟩
  | .hbm, ⟨13, _⟩ => ⟨S16384x32x1, .f32⟩
  | .hbm, ⟨14, _⟩ => ⟨S16384x32x128, .f32⟩
  | .hbm, ⟨15, _⟩ => ⟨S16384x32x128, .f32⟩
  | .hbm, ⟨16, _⟩ => ⟨S_, .f32⟩
  | .hbm, ⟨17, _⟩ => ⟨S16384x32x128, .f32⟩
  | .hbm, ⟨18, _⟩ => ⟨S16384x32x128, .i1⟩
  | .hbm, ⟨19, _⟩ => ⟨S_, .f32⟩
  | .hbm, ⟨20, _⟩ => ⟨S16384x32x128, .f32⟩
  | .hbm, ⟨21, _⟩ => ⟨S16384x32x128, .i1⟩
  | .hbm, ⟨22, _⟩ => ⟨S_, .f32⟩
  | .hbm, ⟨23, _⟩ => ⟨S_, .f32⟩
  | .hbm, ⟨24, _⟩ => ⟨S16384x32x128, .f32⟩
  | .hbm, ⟨25, _⟩ => ⟨S16384x32x128, .f32⟩
  | .hbm, ⟨26, _⟩ => ⟨S16384x32x128, .f32⟩
  | .hbm, ⟨27, _⟩ => ⟨S_, .f32⟩
  | .hbm, ⟨28, _⟩ => ⟨S16384x32x128, .f32⟩
  | .hbm, ⟨29, _⟩ => ⟨S16384x32x128, .f32⟩
  | .hbm, ⟨30, _⟩ => ⟨S16384x32x128, .f32⟩
  | .hbm, ⟨31, _⟩ => ⟨S16384x32x128, .f32⟩
  | .hbm, ⟨32, _⟩ => ⟨S16384x32x128, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S4x2048x16384, .f32⟩
  | .hbm, ⟨37, _⟩ => ⟨S1x1x16384, .f32⟩
  | .hbm, ⟨38, _⟩ => ⟨S4x2048x16384, .f32⟩
  | .hbm, ⟨39, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_cst_6 : Ref sig .tc := ⟨.hbm, 27, rfl⟩
abbrev main_call1_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  shapeCasts_S16384x4096_S16384x32x128 : S16384x4096.ShapeCasts S16384x32x128
  reducesTo_S16384x32x128_S16384x32_d2 : S16384x32x128.ReducesTo [2] S16384x32
  h_S_ : 0 < S_.numel
  bcast_S16384x32_S16384x32x1_0_1 : S16384x32.BroadcastsInDim S16384x32x1 (![0, 1] : Fin 2 → Fin S16384x32x1.rank)
  bcast_S_S16384x32x1 : S_.BroadcastsInDim S16384x32x1 (![] : Fin 0 → Fin S16384x32x1.rank)
  bcast_S16384x32x1_S16384x32x128_0_1_2 : S16384x32x1.BroadcastsInDim S16384x32x128 (![0, 1, 2] : Fin 3 → Fin S16384x32x128.rank)
  bcast_S_S16384x32x128 : S_.BroadcastsInDim S16384x32x128 (![] : Fin 0 → Fin S16384x32x128.rank)
  shapeCasts_S16384x32x128_S16384x4096 : S16384x32x128.ShapeCasts S16384x4096
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  dot_S4x2048x4096_S16384x4096_S4x2048x16384_2_1_01_0_n_n_wf : DotDims.WF S4x2048x4096 S16384x4096 S4x2048x16384 [2] [1] [0, 1] [0] [] []

variable [Facts₀]

def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.Spec.lean ====
/-
  The mathematics of the certificate, stated once over plain index functions and imported by both sides.

  A weight row of 4096 entries is cut into 32 groups of 128. A group's scale is the larger of the mean of its
  absolute values (their sum over 128) and a small positive constant. An entry is sent to `+scale`, `-scale` or
  `0` according to whether its quotient by the scale is above one half, below minus one half, or neither. The
  result of the whole computation at `(b, s, o)` is the inner product over `k` of `x (b, s, k)` with the
  quantized weight at `(o, k)`, plus `bias o`.

  The float literals stay as their bit patterns: both programs carry the same patterns, so none is evaluated.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The scale of one group of 128 entries: `max (Σ |g l| / 128) ε`. -/
def gscale (g : Fin 128 → EReal) : EReal :=
  max (Ideal.div (∑ l : Fin 128, FloatOps.absf (F := Ideal) (φ := .f32) (g l)) (Ideal.ofBits .f32 0x43000000#32))
    (Ideal.ofBits .f32 0x322BCC77#32)

/-- An entry `v` of a group of scale `s`, quantized: `s` if `v / s > 1/2`, `-s` if `v / s < -1/2`, else `0` —
    written as the sign value times the scale, as both programs compute it. -/
def tern (v s : EReal) : EReal :=
  Scalar.select (Ideal.cmp .ogt (Ideal.div v s) (Ideal.ofBits .f32 0x3F000000#32)) (Ideal.ofBits .f32 0x3F800000#32)
    (Scalar.select (Ideal.cmp .olt (Ideal.div v s) (Ideal.ofBits .f32 0xBF000000#32)) (Ideal.ofBits .f32 0xBF800000#32)
      (Ideal.ofBits .f32 0x00000000#32)) * s

/-- The group of column `k` in row `r`: the 128 entries of the row starting at column `128 * (k / 128)`. -/
def grp {n : Nat} (w : (⟨2, ![n, 4096]⟩ : Shape).Idx → EReal) (r : Fin n) (k : Fin 4096) : Fin 128 → EReal :=
  fun l => w (ix2 r ⟨k.val / 128 * 128 + l.val, by have := k.isLt; have := l.isLt; omega⟩)

/-- The quantized weight at row `r`, column `k`, for an array of any number of rows. -/
def quant {n : Nat} (w : (⟨2, ![n, 4096]⟩ : Shape).Idx → EReal) (r : Fin n) (k : Fin 4096) : EReal :=
  tern (w (ix2 r k)) (gscale (grp w r k))

/-- The quantized weight as an array. -/
def quantArr {n : Nat} (w : (⟨2, ![n, 4096]⟩ : Shape).Idx → EReal) : (⟨2, ![n, 4096]⟩ : Shape).Idx → EReal :=
  fun i => quant w (i 0) (i 1)

theorem quantArr_ix2 {n : Nat} (w : (⟨2, ![n, 4096]⟩ : Shape).Idx → EReal) (r : Fin n) (k : Fin 4096) :
    quantArr w (ix2 r k) = quant w r k := rfl

/-- Rows times rows over the shared axis of length 4096, plus a row of biases:
    `mm x q b (r, o) = Σ k, x (r, k) * q (o, k) + b (0, o)`. -/
def mm {M N : Nat} (x : (⟨2, ![M, 4096]⟩ : Shape).Idx → EReal) (q : (⟨2, ![N, 4096]⟩ : Shape).Idx → EReal)
    (b : (⟨2, ![1, N]⟩ : Shape).Idx → EReal) (r : Fin M) (o : Fin N) : EReal :=
  (∑ k : Fin 4096, x (ix2 r k) * q (ix2 o k)) + b (ix2 (0 : Fin 1) o)

/-- The same as an array. -/
def mmArr {M N : Nat} (x : (⟨2, ![M, 4096]⟩ : Shape).Idx → EReal) (q : (⟨2, ![N, 4096]⟩ : Shape).Idx → EReal)
    (b : (⟨2, ![1, N]⟩ : Shape).Idx → EReal) : (⟨2, ![M, N]⟩ : Shape).Idx → EReal :=
  fun i => mm x q b (i 0) (i 1)

theorem mmArr_ix2 {M N : Nat} (x : (⟨2, ![M, 4096]⟩ : Shape).Idx → EReal) (q : (⟨2, ![N, 4096]⟩ : Shape).Idx → EReal)
    (b : (⟨2, ![1, N]⟩ : Shape).Idx → EReal) (r : Fin M) (o : Fin N) : mmArr x q b (ix2 r o) = mm x q b r o := rfl

/-- The whole result: `G x w bias (b, s, o) = Σ k, x (b, s, k) * quant w (o, k) + bias o`. -/
def G (x : (⟨3, ![4, 2048, 4096]⟩ : Shape).Idx → EReal) (w : (⟨2, ![16384, 4096]⟩ : Shape).Idx → EReal)
    (bias : (⟨1, ![16384]⟩ : Shape).Idx → EReal) (b : Fin 4) (s : Fin 2048) (o : Fin 16384) : EReal :=
  (∑ k : Fin 4096, x (ix3 b s k) * quant w o k) + bias (ix1 o)

/-- The same as an array. -/
def GArr (x : (⟨3, ![4, 2048, 4096]⟩ : Shape).Idx → EReal) (w : (⟨2, ![16384, 4096]⟩ : Shape).Idx → EReal)
    (bias : (⟨1, ![16384]⟩ : Shape).Idx → EReal) : (⟨3, ![4, 2048, 16384]⟩ : Shape).Idx → EReal :=
  fun i => G x w bias (i 0) (i 1) (i 2)

theorem GArr_ix3 (x : (⟨3, ![4, 2048, 4096]⟩ : Shape).Idx → EReal) (w : (⟨2, ![16384, 4096]⟩ : Shape).Idx → EReal)
    (bias : (⟨1, ![16384]⟩ : Shape).Idx → EReal) (b : Fin 4) (s : Fin 2048) (o : Fin 16384) :
    GArr x w bias (ix3 b s o) = G x w bias b s o := rfl

/-- Adding a real number back after subtracting it changes nothing, whatever the other term is:
    `a + (b - a) = b` on the extended reals when `a` is real (at `b = ±∞` both sides are `b`). -/
theorem add_sub_self_real (a : ℝ) (b : EReal) : (a : EReal) + (b - (a : EReal)) = b := by
  induction b using EReal.rec with
  | bot => simp
  | top => simp
  | coe r => rw [← EReal.coe_sub, ← EReal.coe_add]; congr 1; ring

end Cert.Spec

end
-- ==== Proof.Finite.lean ====
/-
  What the precondition gives: every entry of the weight array is a real number.

  The precondition is the conjunction of three tests "every |entry| < +∞", one per argument array. An extended
  real whose absolute value lies strictly below +∞ is neither +∞ nor -∞, hence a real number.
-/
import proofs.«170570_j7499012899209_1_alg».proof.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.FiniteInputs

open Idealize.ShloMosaic Idealize.ShloMosaic.ValueIdx Cert.Pre_finite_inputs

instance : Subsingleton S_.Idx := ⟨fun a b => funext fun d => d.elim0⟩

/-- The pattern of the bound denotes +∞. -/
theorem ofBits_inf : Ideal.ofBits .f32 0x7F800000#32 = (⊤ : EReal) := by
  simp [Ideal.ofBits, Ideal.ieee]

/-- An extended real with `|x| < +∞` is a real number: at `±∞` the absolute value is `+∞`. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [ofBits_inf] at h
  induction x using EReal.rec with
  | bot => exact absurd h (by simp [Ideal.cmpf_def, Ideal.absf_def, Ideal.cmp])
  | top => exact absurd h (by simp [Ideal.cmpf_def, Ideal.absf_def, Ideal.cmp])
  | coe r => exact ⟨r, rfl⟩

/-- Under the precondition every weight entry is real: the weight's test is the second of the three conjuncts. -/
theorem weight_real [Facts] (a0 : FVec Ideal S4x2048x4096 .f32) (a1 : FVec Ideal S16384x4096 .f32) (a2 : FVec Ideal S16384 .f32)
    (h : fn (F := Ideal) a0 a1 a2 = fun _ => 1#1) (i : S16384x4096.Idx) : ∃ r : ℝ, a1 i = (r : EReal) := by
  have h0 := congrFun h ix0
  dsimp only [fn] at h0
  have h1 := (IntOp.andi_eq_one.mp h0).1
  have h2 := (IntOp.andi_eq_one.mp h1).2
  have h3 := Host.reduce_andi_all _ _ _ _ _ h2 i
  exact real_of_abs_lt (a1 i) h3

end Cert.FiniteInputs

end
-- ==== Proof.FoldValue.lean ====
/-
  The kernel program's result, read back through the run's boundary contents.

  The result buffer is the reshape [8192, 16384] → [4, 2048, 16384] of the second region's output array. That
  array is rows-times-rows of the reshaped input ([4, 2048, 4096] → [8192, 4096]; the change of float format is the
  identity) with the first region's output array, plus the bias read as one row. The first region's output array
  is the group-wise quantization of the weight array as launched. Row `b * 2048 + s` of the reshaped input is
  row `(b, s)` of the input, so the result at `(b, s, o)` is `Σ k, x (b, s, k) * quant w (o, k) + bias o`.
-/
import proofs.«170570_j7499012899209_1_alg».proof.Proof.Gen.KernelIdeal.Frame
import proofs.«170570_j7499012899209_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.FoldValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The result buffer at the last boundary is the reshape of the second region's output array. -/
theorem W4_v5 (c : Dev nD) : (W4 m ρ c (Proc.devRef .tc main_v5) : S4x2048x16384.Idx → EReal)
    = shapeCast S4x2048x16384 ((dat1 (V2 m ρ) c).arrAt 3 cfg1.N : S8192x16384.Idx → EReal) shapeCasts_S8192x16384_S4x2048x16384 := by
  show StableHlo.after hostOps2 (W3 m ρ c) (Proc.devRef .tc main_v5) = _
  after_results
  exact congrArg (fun A : S8192x16384.Idx → EReal => shapeCast S4x2048x16384 A shapeCasts_S8192x16384_S4x2048x16384) (W3_arr m ρ c 3)

/-- The second region's first operand is the input reshaped to rows. -/
theorem V2_v2 (c : Dev nD) : (V2 m ρ c main_v2 : S8192x4096.Idx → EReal)
    = shapeCast S8192x4096 (m ((c : Thread nD τ).loc main_arg0) : S4x2048x4096.Idx → EReal) shapeCasts_S4x2048x4096_S8192x4096 := by
  show StableHlo.after hostOps1 (W1 m ρ c) (Proc.devRef .tc main_v2) = _
  after_results
  exact congrArg (fun A : S4x2048x4096.Idx → EReal => shapeCast S8192x4096 A shapeCasts_S4x2048x4096_S8192x4096)
    (W1_of_ne m ρ c main_arg0 (by decide))

/-- Its third operand is the bias as one row. -/
theorem V2_v3 (c : Dev nD) : (V2 m ρ c main_v3 : S1x16384.Idx → EReal)
    = shapeCast S1x16384 (m ((c : Thread nD τ).loc main_arg2) : S16384.Idx → EReal) shapeCasts_S16384_S1x16384 := by
  show StableHlo.after hostOps1 (W1 m ρ c) (Proc.devRef .tc main_v3) = _
  after_results
  exact congrArg (fun A : S16384.Idx → EReal => shapeCast S1x16384 A shapeCasts_S16384_S1x16384)
    (W1_of_ne m ρ c main_arg2 (by decide))

/-- Its second operand is the first region's output array. -/
theorem V2_v0 (c : Dev nD) : (V2 m ρ c main_v0 : S16384x4096.Idx → EReal) = (dat0 (V0 m ρ) c).arrAt 1 cfg0.N := by
  show StableHlo.after hostOps1 (W1 m ρ c) (Proc.devRef .tc main_v0) = _
  after_results
  exact W1_arr m ρ c 1

/-- Row `b * 2048 + s` of the reshaped input is row `(b, s)` of the input. -/
theorem rows_apply (x : S4x2048x4096.Idx → EReal) (b : Fin 4) (s : Fin 2048) (k : Fin 4096) :
    shapeCast S8192x4096 x shapeCasts_S4x2048x4096_S8192x4096 (ix2 ⟨b.val * 2048 + s.val, by have := b.isLt; have := s.isLt; omega⟩ k)
      = x (ix3 b s k) := by
  refine shapeCast_apply x shapeCasts_S4x2048x4096_S8192x4096 _ (ix3 b s k) ?_
  rw [Shape.rowMajor_val_three, Shape.rowMajor_val_two]
  rfl

/-- The bias as one row, read at column `o`. -/
theorem bias_apply (y : S16384.Idx → EReal) (o : Fin 16384) :
    shapeCast S1x16384 y shapeCasts_S16384_S1x16384 (ix2 (0 : Fin 1) o) = y (ix1 o) := by
  refine shapeCast_apply y shapeCasts_S16384_S1x16384 _ (ix1 o) ?_
  rw [Shape.rowMajor_val_one, Shape.rowMajor_val_two]
  show o.val = 0 * 16384 + o.val
  omega

/-- The reshaped output at `(b, s, o)` is the rows' array at `(b * 2048 + s, o)`. -/
theorem out_apply (A : S8192x16384.Idx → EReal) (b : Fin 4) (s : Fin 2048) (o : Fin 16384) :
    shapeCast S4x2048x16384 A shapeCasts_S8192x16384_S4x2048x16384 (ix3 b s o)
      = A (ix2 ⟨b.val * 2048 + s.val, by have := b.isLt; have := s.isLt; omega⟩ o) := by
  refine shapeCast_apply A shapeCasts_S8192x16384_S4x2048x16384 _ _ ?_
  rw [Shape.rowMajor_val_three, Shape.rowMajor_val_two]
  rfl

/-- The result buffer is the specification's array of the launched arguments, given what each region leaves. -/
theorem result_eq
    (H0 : ∀ (V : (c : Dev nD) → (b : Ref sig .tc) → Buf (Elt Ideal) ((c : Thread nD τ).loc b)) (c : Dev nD),
      (dat0 (F := Ideal) V c).arrAt 1 cfg0.N = Cert.Spec.quantArr (V c main_arg1))
    (H1 : ∀ (V : (c : Dev nD) → (b : Ref sig .tc) → Buf (Elt Ideal) ((c : Thread nD τ).loc b)) (c : Dev nD),
      (dat1 (F := Ideal) V c).arrAt 3 cfg1.N = Cert.Spec.mmArr (V c main_v2) (V c main_v0) (V c main_v3))
    (c : Dev nD) :
    (W4 m ρ c (Proc.devRef .tc main_v5) : S4x2048x16384.Idx → EReal)
      = Cert.Spec.GArr (m ((c : Thread nD τ).loc main_arg0)) (m ((c : Thread nD τ).loc main_arg1)) (m ((c : Thread nD τ).loc main_arg2)) := by
  rw [W4_v5, H1 (V2 m ρ) c, V2_v2, V2_v0, V2_v3, H0 (V0 m ρ) c]
  funext i
  obtain ⟨b, s, o, rfl⟩ : ∃ (b : Fin 4) (s : Fin 2048) (o : Fin 16384), i = ix3 b s o := ⟨i 0, i 1, i 2, eq_ix3 i⟩
  rw [out_apply, Cert.Spec.mmArr_ix2, Cert.Spec.GArr_ix3]
  unfold Cert.Spec.mm Cert.Spec.G
  rw [bias_apply]
  refine congrArg (· + _) (Finset.sum_congr rfl fun k _ => ?_)
  rw [rows_apply]
  rfl

end Cert.KernelIdeal.FoldValue

end
-- ==== Proof.QuantRegion.lean ====
/-
  Region 0's array. The first kernel cuts each row of the weight array into 32 groups of 128 entries, takes for each
  group the scale `max (Σ |entry| / 128) ε`, and sends an entry to `+scale`, `-scale` or `0` according to its
  quotient by the scale (`Cert.Spec.quant`). It runs over 64 grid points; point `t` loads rows `256 t … 256 t + 255`
  of the weight array (all 4096 columns) and writes the same rows of the output array.

  Proved here, for the contents `V` the region is entered with:
  * the stored block at an index is the quantization of the loaded block there (`pay_apply`): the block is read as
    a [256, 32, 128] cube, entry `(r, k)` being entry `(r, k / 128, k % 128)`, the lane sum of the cube is the sum
    over a group, the scale column is spread back along the lanes, and the sign value times the scale is read flat;
  * what point `t` writes back is block `t` of the quantized weight array (`flushed_eq`): a group of a row of a
    block is the group of that row of the array, because a block holds whole rows;
  * the 64 blocks cover the array (`cover`), so the array ends as the quantized weight array (`region0_array`).
-/
import proofs.«170570_j7499012899209_1_alg».proof.Proof.Gen.KernelIdeal.Frame
import proofs.«170570_j7499012899209_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem
open Idealize.ShloMosaic.Pipeline (Dat)
open Idealize.ShloMosaic.ValueIdx

namespace Cert.KernelIdeal.QuantRegion

open Cert.KernelIdeal Cert.KernelIdeal.Gen

/-! ## The layout operations of the block, at an index -/

/-- The flat block read as a cube: entry `(r, g, l)` of the cube is entry `(r, 128 g + l)` of the block. -/
theorem cube_apply (x0 : Vec Ideal S256x4096 .f32) (r : Fin 256) (g : Fin 32) (l : Fin 128) :
    shapeCast S256x32x128 x0 shapeCasts_S256x4096_S256x32x128 (ix3 r g l)
      = x0 (ix2 r ⟨g.val * 128 + l.val, by have := g.isLt; have := l.isLt; omega⟩) := by
  refine shapeCast_apply x0 _ (ix3 r g l) _ ?_
  rw [Shape.rowMajor_val_two, Shape.rowMajor_val_three]
  show r.val * 4096 + (g.val * 128 + l.val) = (r.val * 32 + g.val) * 128 + l.val
  omega

/-- The sum over the lanes of a cube, at row `r` and group `g`, is the sum of the group's 128 entries. -/
theorem lanesum_apply (v : FVec Ideal S256x32x128 .f32) (r : Fin 256) (g : Fin 32) :
    multiReduction (F := Ideal) .add [2] S256x32 v 0x00000000#32 reduces_S256x32x128_S256x32 (.inl rfl) rfl (ix2 r g)
      = ∑ l : Fin 128, v (ix3 r g l) := by
  refine (Ideal.multiReduction_add_single v _ reduces_S256x32x128_S256x32 (.inl rfl) rfl (ix2 r g)).trans ?_
  show ∑ l : Fin 128, v (reduces_S256x32x128_S256x32.lift (ix2 r g) l) = ∑ l : Fin 128, v (ix3 r g l)
  refine Finset.sum_congr rfl fun l _ => congrArg v (funext fun a => ?_)
  match a with
  | ⟨0, _⟩ => exact Fin.ext rfl
  | ⟨1, _⟩ => exact Fin.ext rfl
  | ⟨2, _⟩ => exact Fin.ext rfl

/-- A [256,32] array given a trailing unit axis: entry `(r, g, 0)` is entry `(r, g)`. -/
theorem keep_apply (v : FVec Ideal S256x32 .f32) (r : Fin 256) (g : Fin 32) (z : Fin 1) :
    shapeCast S256x32x1 v shapeCasts_S256x32_S256x32x1 (ix3 r g z) = v (ix2 r g) := by
  refine shapeCast_apply v _ (ix3 r g z) _ ?_
  rw [Shape.rowMajor_val_two, Shape.rowMajor_val_three]
  show r.val * 32 + g.val = (r.val * 32 + g.val) * 1 + z.val
  have := z.isLt
  omega

/-- A [256,32,1] array spread along the lanes: entry `(r, g, l)` is entry `(r, g, 0)`. -/
theorem spread_apply (v : FVec Ideal S256x32x1 .f32) (r : Fin 256) (g : Fin 32) (l : Fin 128) :
    broadcastTo S256x32x128 v broadcasts_S256x32x1_S256x32x128 (ix3 r g l) = v (ix3 r g (0 : Fin 1)) := by
  refine broadcastTo_apply v _ (ix3 r g l) _ fun a => ?_
  match a with
  | ⟨0, _⟩ => rfl
  | ⟨1, _⟩ => rfl
  | ⟨2, _⟩ => rfl

/-- A cube read flat: entry `(r, k)` of the block is entry `(r, k / 128, k % 128)` of the cube. -/
theorem flat_apply (v : FVec Ideal S256x32x128 .f32) (r : Fin 256) (k : Fin 4096) :
    shapeCast S256x4096 v shapeCasts_S256x32x128_S256x4096 (ix2 r k)
      = v (ix3 r ⟨k.val / 128, by have := k.isLt; omega⟩ ⟨k.val % 128, Nat.mod_lt _ (by decide)⟩) := by
  refine shapeCast_apply v _ (ix2 r k) _ ?_
  rw [Shape.rowMajor_val_two, Shape.rowMajor_val_three]
  show (r.val * 32 + k.val / 128) * 128 + k.val % 128 = r.val * 4096 + k.val
  omega

/-- The scale column of a block at `(r, g, 0)`: the larger of the mean absolute value of group `g` of row `r`
    and the small constant. -/
theorem scale_apply (x0 : Vec Ideal S256x4096 .f32) (r : Fin 256) (g : Fin 32) (z : Fin 1) :
    maximumf
        (divf
          (shapeCast S256x32x1
            (multiReduction (F := Ideal) .add [2] S256x32 (absf (shapeCast S256x32x128 x0 shapeCasts_S256x4096_S256x32x128))
              0x00000000#32 reduces_S256x32x128_S256x32 (.inl rfl) rfl)
            shapeCasts_S256x32_S256x32x1)
          (broadcast S256x32x1 (FloatOps.ofBits .f32 0x43000000#32)))
        (broadcast S256x32x1 (FloatOps.ofBits .f32 0x322BCC77#32)) (ix3 r g z)
      = Cert.Spec.gscale fun l : Fin 128 => x0 (ix2 r ⟨g.val * 128 + l.val, by have := g.isLt; have := l.isLt; omega⟩) := by
  refine congrArg (fun s : EReal => max (Ideal.div s (Ideal.ofBits .f32 0x43000000#32)) (Ideal.ofBits .f32 0x322BCC77#32)) ?_
  refine (keep_apply _ r g z).trans ((lanesum_apply _ r g).trans ?_)
  exact Finset.sum_congr rfl fun l _ =>
    congrArg (FloatOps.absf (F := Ideal) (φ := .f32)) (cube_apply x0 r g l)

/-- The sign value times the scale, entry by entry: what the block's last operations compute from the cube `C`
    and the spread scale `B`. -/
theorem tern_apply (C B : FVec Ideal S256x32x128 .f32) (j : S256x32x128.Idx) :
    mulf
        (select (cmpf .ogt (divf C B) (broadcast S256x32x128 (FloatOps.ofBits .f32 0x3F000000#32)))
          (broadcast S256x32x128 (FloatOps.ofBits .f32 0x3F800000#32))
          (select (cmpf .olt (divf C B) (broadcast S256x32x128 (FloatOps.ofBits .f32 0xBF000000#32)))
            (broadcast S256x32x128 (FloatOps.ofBits .f32 0xBF800000#32))
            (broadcast S256x32x128 (FloatOps.ofBits (F := Ideal) .f32 0x00000000#32))))
        B j
      = Cert.Spec.tern (C j) (B j) := rfl

/-- THE PAYLOAD AT AN INDEX: the block the body stores, at row `r` and column `k`, is the quantized weight of the
    loaded block there. -/
theorem pay_apply (x0 : Vec Ideal S256x4096 .f32) (r : Fin 256) (k : Fin 4096) :
    k0_pay1 x0 (ix2 r k) = Cert.Spec.quant x0 r k := by
  unfold k0_pay1
  dsimp only
  refine (truncf_apply (s := S256x4096) (ψ := .bf16) (φ := .f32) _ bitsLt_bf16_f32 (ix2 r k)).trans ?_
  refine (flat_apply _ r k).trans ?_
  refine (tern_apply _ _ _).trans ?_
  unfold Cert.Spec.quant
  refine congrArg₂ Cert.Spec.tern ?_ ?_
  · refine (cube_apply x0 r _ _).trans (congrArg x0 ?_)
    funext a
    match a with
    | ⟨0, _⟩ => rfl
    | ⟨1, _⟩ => exact Fin.ext (Nat.div_add_mod' k.val 128)
  · refine (spread_apply _ r _ _).trans ?_
    exact scale_apply x0 r _ 0

/-! ## What the body leaves, and the windows' blocks -/

/-- The zero offsets of the body's whole-buffer accesses, however spelt. -/
theorem hz : (![0, 0] : Fin 2 → Nat) = fun _ => 0 := funext fun a => by fin_cases a <;> rfl

/-- What the body leaves in the output's staging buffer is the payload of the loaded block: its one store covers
    the buffer and its one load reads the whole block. -/
theorem out_eq (x0 : Vec Ideal S256x4096 .f32) : out0_1 x0 = k0_pay1 x0 := by
  unfold out0_1
  rw [View.canon_unit_zero hz]
  simp only [View.ld_unit_zero (S := S256x4096) hz]

/-- The windows' index maps over the grid: both windows' block at point `t` is block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row `p` of block `t` is row `256 t + p` of the array: it is inside the array. -/
theorem row_lt (t : Fin cfg0.N) (p : Fin 256) : 256 * t.val + p.val < 16384 := by
  have := t.isLt; have := p.isLt; have : cfg0.N = 64 := rfl; omega

variable (V : (c : Dev nD) → (b : Ref sig .tc) → Buf (Elt Ideal) ((c : Thread nD τ).loc b))

/-- The input window's block at point `t` is rows `256 t … 256 t + 255` of the weight array, all 4096 columns. -/
theorem iblk_apply (c : Dev nD) (t : Fin cfg0.N) (p : Fin 256) (q : Fin 4096) :
    (iblk0 V c 0 t : Vec Ideal S256x4096 .f32) (ix2 p q)
      = (V c main_arg1 : S16384x4096.Idx → EReal) (ix2 ⟨256 * t.val + p.val, row_lt t p⟩ q) := by
  obtain ⟨e0, e1, -, -⟩ := idx_facts t
  unfold iblk0
  rw [View.read_apply]
  show (V c main_arg1 : S16384x4096.Idx → EReal) (((cfg0.win 0).blk t).view.emb (ix2 p q)) = _
  refine congrArg (V c main_arg1 : S16384x4096.Idx → EReal) (funext fun a => Fin.ext ?_)
  match a with
  | ⟨0, _⟩ => show win0_0.index t (0 : Fin 2) * 256 + 1 * p.val = 256 * t.val + p.val; omega
  | ⟨1, _⟩ => show win0_0.index t (1 : Fin 2) * 4096 + 1 * q.val = q.val; omega

/-- The output window's block at point `t` sits on the same rows: its entry `(p, q)` is entry `(256 t + p, q)` of
    the array. -/
theorem oblk_emb (t : Fin cfg0.N) (p : Fin 256) (q : Fin 4096) :
    (((cfg0.win 1).blk t).view.emb (ix2 p q) : S16384x4096.Idx) = ix2 ⟨256 * t.val + p.val, row_lt t p⟩ q := by
  obtain ⟨-, -, e2, e3⟩ := idx_facts t
  refine funext fun a => Fin.ext ?_
  match a with
  | ⟨0, _⟩ => show win0_1.index t (0 : Fin 2) * 256 + 1 * p.val = 256 * t.val + p.val; omega
  | ⟨1, _⟩ => show win0_1.index t (1 : Fin 2) * 4096 + 1 * q.val = q.val; omega

/-- Quantization looks only along a row: if row `p` of `B` is row `p'` of `A`, the two rows quantize alike
    (a group of a row lies inside the row). -/
theorem quant_of_row {n n' : Nat} (B : (⟨2, ![n, 4096]⟩ : Shape).Idx → EReal) (A : (⟨2, ![n', 4096]⟩ : Shape).Idx → EReal)
    (p : Fin n) (p' : Fin n') (h : ∀ q : Fin 4096, B (ix2 p q) = A (ix2 p' q)) (q : Fin 4096) :
    Cert.Spec.quant B p q = Cert.Spec.quant A p' q := by
  unfold Cert.Spec.quant
  refine congrArg₂ Cert.Spec.tern (h q) (congrArg Cert.Spec.gscale (funext fun l => ?_))
  exact h _

/-! ## What a point writes back, the cover, and the array -/

/-- WHAT POINT `t` WRITES BACK is block `t` of the quantized weight array: the body's payload of rows
    `256 t … 256 t + 255` is the quantization of those rows, and the output block lies on the same rows. -/
theorem flushed_eq (c : Dev nD) (t : Fin cfg0.N) :
    (dat0 V c).flushed 1 t
      = ((cfg0.win 1).blk t).view.read (Elt Ideal) (Cert.Spec.quantArr (V c main_arg1)) := by
  show (cfg0.win 1).cut (grid0.coords t) ((dat0 V c).after 1 t) = _
  rw [after0_1, out_eq]
  funext j
  obtain ⟨p, q, rfl⟩ : ∃ (p : Fin 256) (q : Fin 4096), j = ix2 p q := ⟨j 0, j 1, eq_ix2 j⟩
  show k0_pay1 (F := Ideal) (iblk0 V c 0 t) (ix2 p q)
    = Cert.Spec.quantArr (V c main_arg1) (((cfg0.win 1).blk t).view.emb (ix2 p q))
  refine (pay_apply (iblk0 V c 0 t) p q).trans ?_
  refine (quant_of_row (iblk0 V c 0 t) (V c main_arg1) p ⟨256 * t.val + p.val, row_lt t p⟩
    (fun q' => iblk_apply V c t p q') q).trans ?_
  refine (Cert.Spec.quantArr_ix2 (V c main_arg1) ⟨256 * t.val + p.val, row_lt t p⟩ q).symm.trans ?_
  exact congrArg (Cert.Spec.quantArr (V c main_arg1)) (oblk_emb t p q).symm

/-- An index of the array is in point `t`'s output block iff each coordinate is in the block's range on its axis. -/
theorem mem_blk (t : Fin cfg0.N) (i : S16384x4096.Idx) :
    i ∈ ((cfg0.win 1).blk t).view.set ↔ ∀ a : Fin 2, win0_1.index t a * S256x4096.size a ≤ (i a).val
      ∧ (i a).val < win0_1.index t a * S256x4096.size a + S256x4096.size a := by
  show i ∈ ((View.whole main_v0).slice (win0_1.rect t)).set ↔ _
  rw [View.set_slice_whole, Rect.mem_set_unit]
  exact Iff.rfl

/-- THE BLOCKS COVER THE ARRAY: row `r` lies in the block of point `r / 256`, which is written back. -/
theorem cover (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 64 := rfl
  have ht : (i 0).val / 256 < cfg0.N := by rw [hN]; omega
  obtain ⟨-, -, e2, e3⟩ := idx_facts ⟨(i 0).val / 256, ht⟩
  refine ⟨⟨(i 0).val / 256, ht⟩, flush0_1 _, ?_⟩
  rw [mem_blk]
  intro a
  match a with
  | ⟨0, _⟩ =>
    show win0_1.index ⟨(i 0).val / 256, ht⟩ (0 : Fin 2) * 256 ≤ (i 0).val
      ∧ (i 0).val < win0_1.index ⟨(i 0).val / 256, ht⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, ht⟩ (1 : Fin 2) * 4096 ≤ (i 1).val
      ∧ (i 1).val < win0_1.index ⟨(i 0).val / 256, ht⟩ (1 : Fin 2) * 4096 + 4096
    rw [e3]; omega

/-- REGION 0'S ARRAY: after the 64 grid points the output array is the group-wise quantization of the weight array
    as the region found it. -/
theorem region0_array (c : Dev nD) :
    (dat0 (F := Ideal) V c).arrAt 1 cfg0.N = Cert.Spec.quantArr (V c main_arg1) :=
  (dat0 V c).arrAt_eq_of_cover 1 (Cert.Spec.quantArr (V c main_arg1)) (fun t _ => flushed_eq V c t) cover

end Cert.KernelIdeal.QuantRegion

end
-- ==== Proof.MatmulRegion.lean ====
/-
  The second region's result array, as one function of the three arrays the region finds.

  The region multiplies an `8192 x 4096` array `x` by the transpose of a `16384 x 4096` array `q` and adds a row `b` of
  16384 biases: the result at `(R, O)` is `Σ k, x (R, k) * q (O, k) + b (0, O)`. It does so in 256 steps on a `16 x 16` grid.
  Step `t` takes rows `512 * (t / 16) …` of `x` (a `512 x 4096` block), rows `1024 * (t % 16) …` of `q` (a `1024 x 4096`
  block) and the matching 1024 biases, forms the `512 x 1024` product of the first block with the transpose of the second
  plus the biases, and writes it to block `(t / 16, t % 16)` of the result.

  The proof: the stored value at an index of the block is the inner product of a row of each input block plus a bias
  (`pay_ix2`, `out_eq`); a row of a block is a row of its array (`blk0_apply`, `blk1_apply`, `blk2_apply`), so the block's
  product is the corresponding block of the arrays' product (`mm_blk`, `flushed_eq`); the 256 blocks cover the result
  (`cover`); hence the result array is the arrays' product (`region1_array`).
-/
import proofs.«170570_j7499012899209_1_alg».proof.Proof.Gen.KernelIdeal.Frame
import proofs.«170570_j7499012899209_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.MatmulRegion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The block product at an index -/

/-- The left operand's row coordinate at output `(r, o)` is the output's row `r`. -/
theorem lhs_mm_0 (i : S512x1024.Idx) (q : dot_S512x4096_S4096x1024_S512x1024_1_0_0_1_n_n.contr.Idx) :
    (dot_S512x4096_S4096x1024_S512x1024_1_0_0_1_n_n.lhsIdx i q 0).val = (i 0).val := by
  unfold DotDims.lhsIdx
  rw [dif_neg (show ¬(0 : Fin S512x4096.rank) ∈ dot_S512x4096_S4096x1024_S512x1024_1_0_0_1_n_n.lhsBatch by decide), dif_pos (show (0 : Fin S512x4096.rank) ∈ dot_S512x4096_S4096x1024_S512x1024_1_0_0_1_n_n.lhsNonContracting by decide)]
  rfl
/-- The left operand's column coordinate is the summation index. -/
theorem lhs_mm_1 (i : S512x1024.Idx) (q : dot_S512x4096_S4096x1024_S512x1024_1_0_0_1_n_n.contr.Idx) :
    (dot_S512x4096_S4096x1024_S512x1024_1_0_0_1_n_n.lhsIdx i q 1).val = (q ⟨0, by decide⟩).val :=
  dot_S512x4096_S4096x1024_S512x1024_1_0_0_1_n_n.lhsIdx_val_of_single rfl i q
/-- The right operand's row coordinate is the summation index. -/
theorem rhs_mm_0 (i : S512x1024.Idx) (q : dot_S512x4096_S4096x1024_S512x1024_1_0_0_1_n_n.contr.Idx) :
    (dot_S512x4096_S4096x1024_S512x1024_1_0_0_1_n_n.rhsIdx i q 0).val = (q ⟨0, by decide⟩).val :=
  dot_S512x4096_S4096x1024_S512x1024_1_0_0_1_n_n.rhsIdx_val_of_single rfl i q
/-- The right operand's column coordinate at output `(r, o)` is the output's column `o`. -/
theorem rhs_mm_1 (i : S512x1024.Idx) (q : dot_S512x4096_S4096x1024_S512x1024_1_0_0_1_n_n.contr.Idx) :
    (dot_S512x4096_S4096x1024_S512x1024_1_0_0_1_n_n.rhsIdx i q 1).val = (i 1).val := by
  unfold DotDims.rhsIdx
  rw [dif_neg (show ¬(1 : Fin S4096x1024.rank) ∈ dot_S512x4096_S4096x1024_S512x1024_1_0_0_1_n_n.rhsBatch by decide), dif_pos (show (1 : Fin S4096x1024.rank) ∈ dot_S512x4096_S4096x1024_S512x1024_1_0_0_1_n_n.rhsNonContracting by decide)]
  rfl

/-- The block product into the zero accumulator, at `(r, o)`: `Σ k, a (r, k) * b (k, o)`. -/
theorem matmul_zero_ix2 (a : FVec Ideal S512x4096 .bf16) (b : FVec Ideal S4096x1024 .bf16) (r : Fin 512) (o : Fin 1024) :
    FloatOps.matmul dot_S512x4096_S4096x1024_S512x1024_1_0_0_1_n_n none a b (constant S512x1024 .f32 0x00000000#32) (ix2 r o)
      = ∑ k : Fin 4096, a (ix2 r k) * b (ix2 k o) := by
  rw [Ideal.matmul_constant_zero_apply, ← Equiv.sum_comp (ValueIdx.contrEquiv1 dot_S512x4096_S4096x1024_S512x1024_1_0_0_1_n_n 4096 rfl rfl).symm]
  refine Finset.sum_congr rfl fun k _ => ?_
  have hk := ValueIdx.contrEquiv1_symm_val dot_S512x4096_S4096x1024_S512x1024_1_0_0_1_n_n 4096 rfl rfl k
  have el : dot_S512x4096_S4096x1024_S512x1024_1_0_0_1_n_n.lhsIdx (ix2 r o) ((ValueIdx.contrEquiv1 dot_S512x4096_S4096x1024_S512x1024_1_0_0_1_n_n 4096 rfl rfl).symm k) = ix2 r k := funext fun ax => Fin.ext (by
    match ax with
    | ⟨0, _⟩ => exact lhs_mm_0 _ _
    | ⟨1, _⟩ => exact (lhs_mm_1 _ _).trans hk)
  have er : dot_S512x4096_S4096x1024_S512x1024_1_0_0_1_n_n.rhsIdx (ix2 r o) ((ValueIdx.contrEquiv1 dot_S512x4096_S4096x1024_S512x1024_1_0_0_1_n_n 4096 rfl rfl).symm k) = ix2 k o := funext fun ax => Fin.ext (by
    match ax with
    | ⟨0, _⟩ => exact (rhs_mm_0 _ _).trans hk
    | ⟨1, _⟩ => exact rhs_mm_1 _ _)
  rw [el, er]

/-- THE PAYLOAD AT AN INDEX: the body's stored value at `(r, o)` is the inner product of row `r` of the first
    block with row `o` of the second (the second block enters transposed), plus the bias row at `o`. -/
theorem pay_ix2 (x0 : Vec Ideal S512x4096 .bf16) (x1 : Vec Ideal S1024x4096 .bf16) (x2 : Vec Ideal S1x1024 .f32)
    (r : Fin 512) (o : Fin 1024) :
    k1_pay1 (F := Ideal) x0 x1 x2 (ix2 r o) = Cert.Spec.mm x0 x1 x2 r o := by
  unfold k1_pay1
  simp only [shapeCast_self]
  refine (addf_apply _ _ (ix2 r o)).trans ?_
  unfold Cert.Spec.mm
  refine congrArg₂ (· + ·) ?_ ?_
  · refine (matmul_zero_ix2 _ _ r o).trans ?_
    refine Finset.sum_congr rfl fun k _ => ?_
    exact congrArg (x0 (ix2 r k) * ·) (transpose_ix2_apply x1 transposes_S1024x4096_p1_0_S4096x1024 k o)
  · exact broadcastTo_1b_ab_apply x2 broadcasts_S1x1024_S512x1024 r o

/-! ## What the body leaves in the output block -/

/-- The offsets of an access to a whole block are zero on both axes. -/
theorem hz : (![0, 0] : Fin 2 → Nat) = fun _ => 0 := funext fun a => by fin_cases a <;> rfl

/-- The output block after the body is the product of the three input blocks: `(r, o) ↦ Σ k, x0 (r, k) * x1 (o, k) + x2 (0, o)`. -/
theorem out_eq (x0 : Vec Ideal S512x4096 .bf16) (x1 : Vec Ideal S1024x4096 .bf16) (x2 : Vec Ideal S1x1024 .f32) :
    out1_3 (F := Ideal) x0 x1 x2 = Cert.Spec.mmArr x0 x1 x2 := by
  unfold out1_3
  rw [View.canon_unit_zero hz]
  simp only [View.ld_unit_zero (S := S512x4096) hz, View.ld_unit_zero (S := S1024x4096) hz, View.ld_unit_zero (S := S1x1024) hz]
  funext j
  obtain ⟨r, o, rfl⟩ : ∃ (r : Fin 512) (o : Fin 1024), j = ix2 r o := ⟨j 0, j 1, eq_ix2 j⟩
  exact pay_ix2 x0 x1 x2 r o

/-! ## The grid: which blocks point `t` touches -/

/-- The grid has 256 points. -/
theorem N1 : cfg1.N = 256 := by decide

/-- Point `t` is at row-block `t / 16` and column-block `t % 16`: the output block is `(t / 16, t % 16)`, the first
    operand's block is row-block `t / 16`, the second's is row-block `t % 16`, the bias block is column-block `t % 16`;
    decided over the 256 points. -/
theorem idx_facts : ∀ t : Fin cfg1.N,
    win1_3.index t (0 : Fin 2) = t.val / 16 ∧ win1_3.index t (1 : Fin 2) = t.val % 16
    ∧ win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = 0 ∧ win1_2.index t (1 : Fin 2) = t.val % 16 :=
  (by decide +kernel : ∀ t : Fin grid1.N, _)

/-! ## The input blocks as parts of their arrays -/

variable (V : (c : Dev nD) → (b : Ref sig .tc) → Buf (Elt Ideal) ((c : Thread nD τ).loc b))

/-- The first operand's block at point `t`, row `r`: row `(t / 16) * 512 + r` of the whole first operand. -/
theorem blk0_apply (c : Dev nD) (t : Fin cfg1.N) (r : Fin 512) (k : Fin 4096) (R : Fin 8192)
    (hR : R.val = t.val / 16 * 512 + r.val) :
    (iblk1 V c 0 t : Vec Ideal S512x4096 .bf16) (ix2 r k) = (V c main_v2 : S8192x4096.Idx → EReal) (ix2 R k) := by
  obtain ⟨-, -, e0, e1, -⟩ := idx_facts t
  unfold iblk1
  rw [View.read_apply]
  show V c main_v2 _ = V c main_v2 _
  congr 1
  funext a
  apply Fin.ext
  match a with
  | ⟨0, _⟩ => show win1_0.index t (0 : Fin 2) * 512 + 1 * r.val = R.val; rw [e0, hR]; omega
  | ⟨1, _⟩ => show win1_0.index t (1 : Fin 2) * 4096 + 1 * k.val = k.val; rw [e1]; omega

/-- The second operand's block at point `t`, row `o`: row `(t % 16) * 1024 + o` of the whole second operand. -/
theorem blk1_apply (c : Dev nD) (t : Fin cfg1.N) (o : Fin 1024) (k : Fin 4096) (O : Fin 16384)
    (hO : O.val = t.val % 16 * 1024 + o.val) :
    (iblk1 V c 1 t : Vec Ideal S1024x4096 .bf16) (ix2 o k) = (V c main_v0 : S16384x4096.Idx → EReal) (ix2 O k) := by
  obtain ⟨-, -, -, -, e0, e1, -⟩ := idx_facts t
  unfold iblk1
  rw [View.read_apply]
  show V c main_v0 _ = V c main_v0 _
  congr 1
  funext a
  apply Fin.ext
  match a with
  | ⟨0, _⟩ => show win1_1.index t (0 : Fin 2) * 1024 + 1 * o.val = O.val; rw [e0, hO]; omega
  | ⟨1, _⟩ => show win1_1.index t (1 : Fin 2) * 4096 + 1 * k.val = k.val; rw [e1]; omega

/-- The bias block at point `t`, column `o`: column `(t % 16) * 1024 + o` of the whole bias row. -/
theorem blk2_apply (c : Dev nD) (t : Fin cfg1.N) (o : Fin 1024) (O : Fin 16384)
    (hO : O.val = t.val % 16 * 1024 + o.val) :
    (iblk1 V c 2 t : Vec Ideal S1x1024 .f32) (ix2 (0 : Fin 1) o) = (V c main_v3 : S1x16384.Idx → EReal) (ix2 (0 : Fin 1) O) := by
  obtain ⟨-, -, -, -, -, -, e0, e1⟩ := idx_facts t
  unfold iblk1
  rw [View.read_apply]
  show V c main_v3 _ = V c main_v3 _
  congr 1
  funext a
  apply Fin.ext
  match a with
  | ⟨0, _⟩ => show win1_2.index t (0 : Fin 2) * 1 + 1 * 0 = 0; rw [e0]
  | ⟨1, _⟩ => show win1_2.index t (1 : Fin 2) * 1024 + 1 * o.val = O.val; rw [e1, hO]; omega

/-! ## What point `t` writes back -/

/-- A product of parts is the part of the product: if row `r` of `b0` is row `R` of `A0`, row `o` of `b1` is row `O` of
    `A1` and `b2` at `o` is `A2` at `O`, then the products agree at `(r, o)` and `(R, O)`. -/
theorem mm_of_rows {m n M N : Nat}
    (b0 : (⟨2, ![m, 4096]⟩ : Shape).Idx → EReal) (b1 : (⟨2, ![n, 4096]⟩ : Shape).Idx → EReal) (b2 : (⟨2, ![1, n]⟩ : Shape).Idx → EReal)
    (A0 : (⟨2, ![M, 4096]⟩ : Shape).Idx → EReal) (A1 : (⟨2, ![N, 4096]⟩ : Shape).Idx → EReal) (A2 : (⟨2, ![1, N]⟩ : Shape).Idx → EReal)
    (r : Fin m) (o : Fin n) (R : Fin M) (O : Fin N)
    (h0 : ∀ k : Fin 4096, b0 (ix2 r k) = A0 (ix2 R k)) (h1 : ∀ k : Fin 4096, b1 (ix2 o k) = A1 (ix2 O k))
    (h2 : b2 (ix2 (0 : Fin 1) o) = A2 (ix2 (0 : Fin 1) O)) :
    Cert.Spec.mm b0 b1 b2 r o = Cert.Spec.mm A0 A1 A2 R O := by
  unfold Cert.Spec.mm
  rw [h2]
  exact congrArg (· + A2 (ix2 (0 : Fin 1) O)) (Finset.sum_congr rfl fun k _ => by rw [h0 k, h1 k])

/-- The product of point `t`'s blocks at `(r, o)` is the product of the whole arrays at
    `((t / 16) * 512 + r, (t % 16) * 1024 + o)`. -/
theorem mm_blk (c : Dev nD) (t : Fin cfg1.N) (r : Fin 512) (o : Fin 1024) (R : Fin 8192) (O : Fin 16384)
    (hR : R.val = t.val / 16 * 512 + r.val) (hO : O.val = t.val % 16 * 1024 + o.val) :
    Cert.Spec.mm (iblk1 V c 0 t : Vec Ideal S512x4096 .bf16) (iblk1 V c 1 t : Vec Ideal S1024x4096 .bf16) (iblk1 V c 2 t : Vec Ideal S1x1024 .f32) r o
      = Cert.Spec.mm (V c main_v2 : S8192x4096.Idx → EReal) (V c main_v0 : S16384x4096.Idx → EReal) (V c main_v3 : S1x16384.Idx → EReal) R O :=
  mm_of_rows _ _ _ _ _ _ r o R O (fun k => blk0_apply V c t r k R hR) (fun k => blk1_apply V c t o k O hO) (blk2_apply V c t o O hO)

/-- WHAT POINT `t` WRITES BACK is block `t` of the product of the whole arrays. -/
theorem flushed_eq (c : Dev nD) (t : Fin cfg1.N) :
    (dat1 (F := Ideal) V c).flushed 3 t
      = ((cfg1.win 3).blk t).view.read (Elt Ideal) (Cert.Spec.mmArr (V c main_v2) (V c main_v0) (V c main_v3)) := by
  show (cfg1.win 3).cut (grid1.coords t) ((dat1 (F := Ideal) V c).after 3 t) = _
  rw [after1_3]
  refine (congrArg ((cfg1.win 3).cut (grid1.coords t)) (out_eq (iblk1 V c 0 t) (iblk1 V c 1 t) (iblk1 V c 2 t))).trans ?_
  obtain ⟨e0, e1, -⟩ := idx_facts t
  funext j
  have hj0 : (j 0).val < 512 := (j 0).isLt
  have hj1 : (j 1).val < 1024 := (j 1).isLt
  show Cert.Spec.mm (iblk1 V c 0 t : Vec Ideal S512x4096 .bf16) (iblk1 V c 1 t : Vec Ideal S1024x4096 .bf16) (iblk1 V c 2 t : Vec Ideal S1x1024 .f32)
      (⟨(j 0).val, hj0⟩ : Fin 512) (⟨(j 1).val, hj1⟩ : Fin 1024)
    = Cert.Spec.mm (V c main_v2 : S8192x4096.Idx → EReal) (V c main_v0 : S16384x4096.Idx → EReal) (V c main_v3 : S1x16384.Idx → EReal)
      ((((cfg1.win 3).blk t).view.emb j) 0) ((((cfg1.win 3).blk t).view.emb j) 1)
  refine mm_blk V c t _ _ _ _ ?_ ?_
  · show win1_3.index t (0 : Fin 2) * 512 + 1 * (j 0).val = t.val / 16 * 512 + (j 0).val
    rw [e0]; omega
  · show win1_3.index t (1 : Fin 2) * 1024 + 1 * (j 1).val = t.val % 16 * 1024 + (j 1).val
    rw [e1]; omega

/-! ## The blocks cover the array -/

/-- An index of the result array is in point `t`'s block iff each coordinate is in the block's range on its axis. -/
theorem mem_blk (t : Fin cfg1.N) (i : S8192x16384.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v4).slice (win1_3.rect t)).set ↔ _
  rw [View.set_slice_whole, Rect.mem_set_unit]
  exact Iff.rfl

/-- Row `R`, column `O` of the result is in the block of point `16 * (R / 512) + O / 1024`, and every point writes back. -/
theorem cover (i : S8192x16384.Idx) :
    ∃ t : Fin cfg1.N, (cfg1.win 3).flush t = true ∧ i ∈ ((cfg1.win 3).blk t).view.set := by
  have h0 : (i 0).val < 8192 := (i 0).isLt
  have h1 : (i 1).val < 16384 := (i 1).isLt
  have hlt : (i 0).val / 512 * 16 + (i 1).val / 1024 < cfg1.N := by rw [N1]; omega
  refine ⟨⟨(i 0).val / 512 * 16 + (i 1).val / 1024, hlt⟩, flush1_3 _, ?_⟩
  rw [mem_blk]
  obtain ⟨e0, e1, -⟩ := idx_facts ⟨(i 0).val / 512 * 16 + (i 1).val / 1024, hlt⟩
  intro a
  match a with
  | ⟨0, _⟩ =>
    show win1_3.index ⟨(i 0).val / 512 * 16 + (i 1).val / 1024, hlt⟩ (0 : Fin 2) * 512 ≤ (i 0).val
      ∧ (i 0).val < win1_3.index ⟨(i 0).val / 512 * 16 + (i 1).val / 1024, hlt⟩ (0 : Fin 2) * 512 + 512
    rw [e0]
    show ((i 0).val / 512 * 16 + (i 1).val / 1024) / 16 * 512 ≤ (i 0).val ∧ (i 0).val < ((i 0).val / 512 * 16 + (i 1).val / 1024) / 16 * 512 + 512
    omega
  | ⟨1, _⟩ =>
    show win1_3.index ⟨(i 0).val / 512 * 16 + (i 1).val / 1024, hlt⟩ (1 : Fin 2) * 1024 ≤ (i 1).val
      ∧ (i 1).val < win1_3.index ⟨(i 0).val / 512 * 16 + (i 1).val / 1024, hlt⟩ (1 : Fin 2) * 1024 + 1024
    rw [e1]
    show ((i 0).val / 512 * 16 + (i 1).val / 1024) % 16 * 1024 ≤ (i 1).val ∧ (i 1).val < ((i 0).val / 512 * 16 + (i 1).val / 1024) % 16 * 1024 + 1024
    omega

/-! ## The result array after the 256 points -/

/-- THE ARRAY after the run of the region: at `(R, O)` it holds `Σ k, x (R, k) * q (O, k) + b (0, O)` of the three arrays the
    region found. -/
theorem region1_array (c : Dev nD) :
    (dat1 (F := Ideal) V c).arrAt 3 cfg1.N = Cert.Spec.mmArr (V c main_v2) (V c main_v0) (V c main_v3) :=
  (dat1 (F := Ideal) V c).arrAt_eq_of_cover 3 (Cert.Spec.mmArr (V c main_v2) (V c main_v0) (V c main_v3))
    (fun t _ => flushed_eq V c t) cover

end Cert.KernelIdeal.MatmulRegion

end
-- ==== Proof.RefValue.lean ====
import proofs.«170570_j7499012899209_1_alg».proof.Proof.Gen.ReferenceIdeal.Read
import proofs.«170570_j7499012899209_1_alg».proof.Proof.Spec
import Idealize.ShloMosaic.Lib.ValueIdx
import Idealize.ShloMosaic.PureOps.Ideal.Laws

/-!
  The reference program's result, read index by index, is the specification's array.

  The reference views each weight row of 4096 entries as 32 groups of 128, computes each group's scale
  (the mean of the absolute values, floored by a small constant), sends each entry to plus or minus the
  scale or to zero, views the result as rows of 4096 again, adds and subtracts the original weight (which
  changes nothing when the weight is real), contracts the input with the result over the shared axis and
  adds the bias.
-/

noncomputable section

open scoped BigOperators

namespace Cert.ReferenceIdeal.RefValue

open Cert.ReferenceIdeal Cert.ReferenceIdeal.Gen Cert.ReferenceIdeal.Read Idealize.ShloMosaic
  Idealize.ShloMosaic.ValueIdx Idealize.ShloMosaic.TcCoe Idealize.SL.Sem Idealize.ShloMosaic.StableHlo

/-! ## Index equations -/

/-- Entry (o, g, l) of the grouped view is entry (o, 128 g + l) of the row view. -/
theorem idx_v0 (o : Fin 16384) (g : Fin 32) (l : Fin 128) :
    idx_main_v0 (ix3 o g l) = ix2 o ⟨g.val * 128 + l.val, by have := g.isLt; have := l.isLt; omega⟩ :=
  funext fun a => Fin.ext (by
    have ho := o.isLt; have hg := g.isLt; have hl := l.isLt
    match a with
    | ⟨0, _⟩ => show ((o.val * 32 + g.val) * 128 + l.val) / 4096 = o.val; omega
    | ⟨1, _⟩ => show ((o.val * 32 + g.val) * 128 + l.val) % 4096 = g.val * 128 + l.val; omega)

/-- The sum over a group runs over the entries (o, g, k). -/
theorem idx_v2 (o : Fin 16384) (g : Fin 32) (k : Fin 128) : idx_main_v2 (ix2 o g) k = ix3 o g k :=
  funext fun a => Fin.ext (by match a with | ⟨0, _⟩ => rfl | ⟨1, _⟩ => rfl | ⟨2, _⟩ => rfl)

/-- The kept unit axis reads the group sum at (o, g). -/
theorem idx_v3 (o : Fin 16384) (g : Fin 32) (z : Fin 1) : idx_main_v3 (ix3 o g z) = ix2 o g :=
  funext fun a => Fin.ext (by match a with | ⟨0, _⟩ => rfl | ⟨1, _⟩ => rfl)

/-- Broadcasting the scale along a group reads it at (o, g, 0). -/
theorem idx_v8 (o : Fin 16384) (g : Fin 32) (l : Fin 128) : idx_main_v8 (ix3 o g l) = ix3 o g (0 : Fin 1) :=
  funext fun a => Fin.ext (by match a with | ⟨0, _⟩ => rfl | ⟨1, _⟩ => rfl | ⟨2, _⟩ => rfl)

/-- The second broadcast of the scale reads the same entry. -/
theorem idx_v17 (o : Fin 16384) (g : Fin 32) (l : Fin 128) : idx_main_v17 (ix3 o g l) = ix3 o g (0 : Fin 1) :=
  funext fun a => Fin.ext (by match a with | ⟨0, _⟩ => rfl | ⟨1, _⟩ => rfl | ⟨2, _⟩ => rfl)

/-- Entry (o, k) of the row view is entry (o, k / 128, k % 128) of the grouped view. -/
theorem idx_v19 (o : Fin 16384) (k : Fin 4096) :
    idx_main_v19 (ix2 o k) = ix3 o (⟨k.val / 128, by have := k.isLt; omega⟩ : Fin 32)
      (⟨k.val % 128, Nat.mod_lt _ (by decide)⟩ : Fin 128) :=
  funext fun a => Fin.ext (by
    have ho := o.isLt; have hk := k.isLt
    match a with
    | ⟨0, _⟩ => show (o.val * 4096 + k.val) / 4096 = o.val; omega
    | ⟨1, _⟩ => show (o.val * 4096 + k.val) / 128 % 32 = k.val / 128; omega
    | ⟨2, _⟩ => show (o.val * 4096 + k.val) % 128 = k.val % 128; omega)

/-- The contraction reads the input at (b, s, k) … -/
theorem lidx_v22 (b : Fin 4) (s : Fin 2048) (o : Fin 16384) (k : Fin 4096) :
    lidx_main_v22 (ix3 b s o) k = ix3 b s k :=
  funext fun a => Fin.ext (by match a with | ⟨0, _⟩ => rfl | ⟨1, _⟩ => rfl | ⟨2, _⟩ => rfl)

/-- … and the weight at (o, k). -/
theorem ridx_v22 (b : Fin 4) (s : Fin 2048) (o : Fin 16384) (k : Fin 4096) :
    ridx_main_v22 (ix3 b s o) k = ix2 o k :=
  funext fun a => Fin.ext (by match a with | ⟨0, _⟩ => rfl | ⟨1, _⟩ => rfl)

/-- The two broadcasts of the bias read it at o. -/
theorem idx_v23_v24 (b : Fin 4) (s : Fin 2048) (o : Fin 16384) :
    idx_main_v23 (idx_main_v24 (ix3 b s o)) = ix1 o :=
  funext fun a => Fin.ext (by match a with | ⟨0, _⟩ => rfl)

/-! ## The grouped view and the scale -/

/-- The grouped view at (o, g, l) is the weight at column c = 128 g + l of row o. -/
theorem v0_at (x1 : (⟨S16384x4096, .f32⟩ : BufTy).Contents (Elt Ideal)) (o : Fin 16384) (g : Fin 32) (l : Fin 128)
    (c : Fin 4096) (hc : c.val = g.val * 128 + l.val) :
    val_main_v0 (F := Ideal) x1 (ix3 o g l) = x1 (ix2 o c) := by
  rw [val_main_v0_apply, idx_v0]
  exact congrArg (fun c => x1 (ix2 o c)) (Fin.ext hc.symm)

/-- The same with the column written out. -/
theorem v0_at_col (x1 : (⟨S16384x4096, .f32⟩ : BufTy).Contents (Elt Ideal)) (o : Fin 16384) (g : Fin 32) (l : Fin 128) :
    val_main_v0 (F := Ideal) x1 (ix3 o g l)
      = x1 (ix2 o ⟨g.val * 128 + l.val, by have := g.isLt; have := l.isLt; omega⟩) :=
  v0_at x1 o g l _ rfl

/-- The scale the reference computes for group g of row o is the specification's scale of that group:
    the sum of the 128 absolute values (started from zero) over 128, floored by the small constant. -/
theorem scale_at (x1 : (⟨S16384x4096, .f32⟩ : BufTy).Contents (Elt Ideal)) (o : Fin 16384) (g : Fin 32) :
    val_main_v7 (F := Ideal) x1 (ix3 o g (0 : Fin 1))
      = Cert.Spec.gscale (fun l : Fin 128 =>
          x1 (ix2 o ⟨g.val * 128 + l.val, by have := g.isLt; have := l.isLt; omega⟩)) := by
  rw [val_main_v7_apply, val_main_v5_apply, val_main_v3_apply, val_main_v4_apply, val_main_v6_apply,
    val_main_cst_0_apply, val_main_cst_1_apply, idx_v3, val_main_v2_apply, val_main_cst_apply]
  simp only [idx_v2, val_main_v1_apply, v0_at_col, Ideal.hostAbsf_def, Ideal.hostDivf_def,
    Ideal.maximumf_def, Ideal.ofBits_def, Ideal.ofBits_zero_f32, zero_add]
  rfl

/-! ## The quantized weight -/

/-- The sign value times the scale at (o, g, l), with c = 128 g + l the entry's column: the specification's
    ternary value of the entry against the reference's scale of its group. The two comparisons of the quotient
    with one half and minus one half choose between 1, -1 and 0. -/
theorem v18_at (x1 : (⟨S16384x4096, .f32⟩ : BufTy).Contents (Elt Ideal)) (o : Fin 16384) (g : Fin 32) (l : Fin 128)
    (c : Fin 4096) (hc : c.val = g.val * 128 + l.val) :
    val_main_v18 (F := Ideal) x1 (ix3 o g l)
      = Cert.Spec.tern (x1 (ix2 o c)) (val_main_v7 (F := Ideal) x1 (ix3 o g (0 : Fin 1))) := by
  rw [val_main_v18_apply, val_main_v16_apply, val_main_v15_apply, val_main_v14_apply, val_main_v11_apply,
    val_main_v13_apply, val_main_v9_apply, val_main_v8_apply, val_main_v17_apply, val_main_v10_apply,
    val_main_v12_apply, val_main_call1_v0_apply, val_main_call0_v0_apply, val_main_call0_v1_apply,
    val_main_cst_2_apply, val_main_cst_3_apply, val_main_cst_4_apply, val_main_cst_5_apply, val_main_cst_6_apply,
    idx_v8, idx_v17, v0_at x1 o g l c hc]
  rfl

/-- The reference's quantized weight at (o, k) is the specification's: entry (o, k) sits in group k / 128 at
    place k % 128, and 128 (k / 128) + k % 128 = k. -/
theorem quant_at (x1 : (⟨S16384x4096, .f32⟩ : BufTy).Contents (Elt Ideal)) (o : Fin 16384) (k : Fin 4096) :
    val_main_v19 (F := Ideal) x1 (ix2 o k) = Cert.Spec.quant x1 o k := by
  rw [val_main_v19_apply, idx_v19,
    v18_at x1 o _ _ k (by show k.val = k.val / 128 * 128 + k.val % 128; omega), scale_at]
  rfl

/-! ## Adding the weight back after subtracting it -/

/-- The reference adds the weight to the difference of the quantized weight and the weight. Where the weight is a
    real number this is the quantized weight itself: the one place finiteness of the weight is used. -/
theorem v21_at (x1 : (⟨S16384x4096, .f32⟩ : BufTy).Contents (Elt Ideal)) (hfin : ∀ i, ∃ r : ℝ, x1 i = (r : EReal))
    (i : S16384x4096.Idx) : val_main_v21 (F := Ideal) x1 i = val_main_v19 (F := Ideal) x1 i := by
  obtain ⟨r, hr⟩ := hfin i
  rw [val_main_v21_apply, val_main_v20_apply]
  generalize val_main_v19 (F := Ideal) x1 i = b
  rw [hr]
  exact Cert.Spec.add_sub_self_real r b

/-! ## The result -/

/-- The reference's result is the specification: at (b, s, o) the sum over k of the input at (b, s, k) times the
    quantized weight at (o, k), plus the bias at o. -/
theorem ref_eq (x0 : (⟨S4x2048x4096, .f32⟩ : BufTy).Contents (Elt Ideal))
    (x1 : (⟨S16384x4096, .f32⟩ : BufTy).Contents (Elt Ideal)) (x2 : (⟨S16384, .f32⟩ : BufTy).Contents (Elt Ideal))
    (hfin : ∀ i, ∃ r : ℝ, x1 i = (r : EReal)) :
    Cert.ReferenceIdeal.Read.val_main_v25 (F := Ideal) x0 x1 x2 = Cert.Spec.GArr x0 x1 x2 := by
  funext i
  obtain ⟨b, s, o, rfl⟩ : ∃ (b : Fin 4) (s : Fin 2048) (o : Fin 16384), i = ix3 b s o :=
    ⟨i 0, i 1, i 2, eq_ix3 i⟩
  rw [Cert.Spec.GArr_ix3, val_main_v25_apply, val_main_v22_apply, val_main_v24_apply, val_main_v23_apply,
    idx_v23_v24]
  simp only [lidx_v22, ridx_v22, v21_at x1 hfin, quant_at]
  rfl

end Cert.ReferenceIdeal.RefValue

end
-- ==== Proof.lean ====
/-
  The certificate of a ternary-quantized linear layer: the kernel program against its plain reference.

  Both compute `out (b, s, o) = Σ k, x (b, s, k) * q (o, k) + bias o`, where `q` is the weight quantized in groups
  of 128 along each row: with `s = max (mean |group|) ε`, an entry `v` becomes `s`, `-s` or `0` according to
  `v / s > 1/2`, `v / s < -1/2`, or neither. The kernel program does it in two tiled passes (quantize 256 rows at a
  time; then 512 × 1024 output tiles over the whole shared axis, plus the bias row), with a change of float format
  in between that is the identity on the extended reals. The reference writes the quantized weight as
  `w + (q - w)`; for a real `w` that is `q`, and the precondition makes every weight entry real. Sums are taken in
  the same order on both sides, so no other law is needed.

  The modules: the specification (`Spec`); what each of the two regions leaves in its output array
  (`QuantRegion`, `MatmulRegion`); the run with the result buffer named and the result read back through the
  run's boundaries (`RunNamed`, `FoldValue`); the reference's term read index by index (`RefValue`); the
  precondition read at a weight entry (`Finite`).
-/
import proofs.«170570_j7499012899209_1_alg».proof.Defs
import proofs.«170570_j7499012899209_1_alg».proof.Proof.Gen.Kernel
import proofs.«170570_j7499012899209_1_alg».proof.Proof.Gen.Kernel.Skeleton
import proofs.«170570_j7499012899209_1_alg».proof.Proof.Gen.Kernel.Launch
import proofs.«170570_j7499012899209_1_alg».proof.Proof.Gen.Kernel.Points
import proofs.«170570_j7499012899209_1_alg».proof.Proof.Gen.Kernel.Frame
import proofs.«170570_j7499012899209_1_alg».proof.Proof.Gen.KernelIdeal
import proofs.«170570_j7499012899209_1_alg».proof.Proof.Gen.KernelIdeal.Skeleton
import proofs.«170570_j7499012899209_1_alg».proof.Proof.Gen.KernelIdeal.Launch
import proofs.«170570_j7499012899209_1_alg».proof.Proof.Gen.KernelIdeal.Points
import proofs.«170570_j7499012899209_1_alg».proof.Proof.Gen.KernelIdeal.Frame
import proofs.«170570_j7499012899209_1_alg».proof.Proof.Gen.ReferenceIdeal
import proofs.«170570_j7499012899209_1_alg».proof.Proof.Gen.ReferenceIdeal.Run
import proofs.«170570_j7499012899209_1_alg».proof.Proof.Gen.ReferenceIdeal.Read
import proofs.«170570_j7499012899209_1_alg».proof.Proof.Gen.Pre_finite_inputs
import proofs.«170570_j7499012899209_1_alg».proof.Proof.Spec
import proofs.«170570_j7499012899209_1_alg».proof.Proof.Finite
import proofs.«170570_j7499012899209_1_alg».proof.Proof.RunNamed
import proofs.«170570_j7499012899209_1_alg».proof.Proof.FoldValue
import proofs.«170570_j7499012899209_1_alg».proof.Proof.QuantRegion
import proofs.«170570_j7499012899209_1_alg».proof.Proof.MatmulRegion
import proofs.«170570_j7499012899209_1_alg».proof.Proof.RefValue
import Idealize.ShloMosaic.Adequacy
import Idealize.ShloMosaic.Init

noncomputable section

/-! ## The claims -/

namespace Cert.Proof.Claims

open Idealize.ShloMosaic Idealize.SL.Sem

/-- The word-level program runs and leaves its arguments as launched. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference's run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same array: the kernel program's result is the specification's array of the
    launched arguments (the two regions' output arrays read back through the run), and so is the reference's,
    its straight-through term `w + (q - w)` collapsing to the quantized weight `q` because every weight entry is
    real under the precondition. -/
theorem algebraic : Cert.algebraic_KernelIdeal_ReferenceIdeal := by
  intro m ρ m' ρ' hpre hagree
  refine ⟨fun c => Cert.Spec.GArr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.FoldValue.result_eq m ρ
          Cert.KernelIdeal.QuantRegion.region0_array Cert.KernelIdeal.MatmulRegion.region1_array c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2]
    exact (Cert.ReferenceIdeal.Read.val_main_v25_eq _ _ _).trans
      (Cert.ReferenceIdeal.RefValue.ref_eq _ _ _ (fun i => Cert.FiniteInputs.weight_real _ _ _ (hpre c) i))

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, trivial, Claims.algebraic⟩

end Cert.Proof

end
